-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S6400x1 : Shape := ⟨2, ![6400, 1]⟩
abbrev S6400x128 : Shape := ⟨2, ![6400, 128]⟩
abbrev S5000x128 : Shape := ⟨2, ![5000, 128]⟩
abbrev S1x128 : Shape := ⟨2, ![1, 128]⟩

abbrev nBuf : Space → Nat
  | .hbm => 89
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000, .f32⟩
  | .hbm, ⟨58, _⟩ => ⟨S800000, .f32⟩
  | .hbm, ⟨59, _⟩ => ⟨S800000x1, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x128, .f32⟩
  | .local _ .vmem, ⟨0, _⟩ => ⟨S6400x1, .f32⟩
  | .local _ .vmem, ⟨1, _⟩ => ⟨S6400x1, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  broadcasts_S6400x1_S6400x128 : S6400x1.Broadcasts S6400x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x1.size a ≤ S800000x1.size a
  hwx0_0 : ∀ i : grid0.Coords, EltTy.bits .f32 = 32 ∨ (Rect.block (s := S800000x1) S6400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S800000x128.size a
  hwx0_2 : ∀ i : grid0.Coords, EltTy.bits .f32 = 32 ∨ (Rect.block (s := S800000x128) S6400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S800000x128.size a
  hwx0_3 : ∀ i : grid0.Coords, EltTy.bits .f32 = 32 ∨ (Rect.block (s := S800000x128) S6400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S6400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51_0) S6400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51_1) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000, .f32⟩
  | .hbm, ⟨58, _⟩ => ⟨S800000, .f32⟩
  | .hbm, ⟨59, _⟩ => ⟨S800000x1, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S800000x1, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_14 : Ref sig .tc := ⟨.hbm, 76, rfl⟩
abbrev main_v50 : Ref sig .tc := ⟨.hbm, 77, rfl⟩
abbrev main_v51 : Ref sig .tc := ⟨.hbm, 78, rfl⟩
abbrev main_c_15 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostEntry.lean ====
/-
  What region 0 of the kernel's program finds in its buffers, named by the reference's own stages.

  Before its first pallas_call the kernel's program computes, on the host, exactly what the reference computes:
  the row and column index vectors sliced out of the edge list, the degree-normalised edge weight `w`
  (two scatter-added degree counts, their inverse square roots where positive, gathered at the wrapped
  row and column indices and multiplied), and the node rows gathered at the wrapped column and row indices.
  Operation by operation the two programs apply the same functions to the same arguments, so each buffer the
  region reads is the corresponding stage of the reference applied to the launch contents of the arguments:
  the two index vectors, the weight vector (which the kernel's program reshapes to a column), and the two gathered arrays.
  Nothing is computed here: both sides are the same composition of host operations, compared as terms
  at an arbitrary float family.
-/
import proofs.«180594_j74861279969844_1_alg».proof.Proof.Gen.KernelIdeal.Frame
import proofs.«180594_j74861279969844_1_alg».proof.Proof.RefRead

set_option maxRecDepth 16384

noncomputable section

namespace Cert.KernelIdeal.HostEntry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The row indices (the edge list's first row) at region 0's entry are the reference's. -/
theorem entry_row (c : Dev nD) :
    V5 m ρ c main_v1 = Cert.ReferenceIdeal.ReadP.val_main_v1 (F := F) (m ((c : Thread nD τ).loc main_arg1)) := by
  show W5 m ρ c (Proc.devRef .tc main_v1) = _
  after_results_simp
  rfl

/-- The column indices (the edge list's second row) at region 0's entry are the reference's. -/
theorem entry_col (c : Dev nD) :
    V5 m ρ c main_v3 = Cert.ReferenceIdeal.ReadP.val_main_v3 (F := F) (m ((c : Thread nD τ).loc main_arg1)) := by
  show W5 m ρ c (Proc.devRef .tc main_v3) = _
  after_results_simp
  rfl

set_option maxHeartbeats 4000000 in
/-- The edge weights at region 0's entry: the reference's weight vector, reshaped to a column. -/
theorem entry_weight (c : Dev nD) :
    V5 m ρ c main_v36 = shapeCast S800000x1
      (Cert.ReferenceIdeal.ReadP.val_main_v35 (F := F) (m ((c : Thread nD τ).loc main_arg1))) shapeCasts_S800000_S800000x1 := by
  show W5 m ρ c (Proc.devRef .tc main_v36) = _
  after_results_simp
  rfl

set_option maxHeartbeats 4000000 in
/-- The node rows gathered at the column indices, at region 0's entry, are the reference's. -/
theorem entry_xcol (c : Dev nD) :
    V5 m ρ c main_v43 = Cert.ReferenceIdeal.ReadP.val_main_v43 (F := F)
      (m ((c : Thread nD τ).loc main_arg0)) (m ((c : Thread nD τ).loc main_arg1)) := by
  show W5 m ρ c (Proc.devRef .tc main_v43) = _
  after_results_simp
  rfl

set_option maxHeartbeats 4000000 in
/-- The node rows gathered at the row indices, at region 0's entry, are the reference's. -/
theorem entry_xrow (c : Dev nD) :
    V5 m ρ c main_v50 = Cert.ReferenceIdeal.ReadP.val_main_v56 (F := F)
      (m ((c : Thread nD τ).loc main_arg0)) (m ((c : Thread nD τ).loc main_arg1)) := by
  show W5 m ρ c (Proc.devRef .tc main_v50) = _
  after_results_simp
  rfl

end Cert.KernelIdeal.HostEntry

end
-- ==== Proof.Spec.lean ====
/-
  The two pure functions this certificate is about, over literal shapes and with no program in sight.

  `message w x`: an edge's message is its weight times the gathered node row, entry by entry:
  `message w x (e, d) = w (e, 0) · x (e, d)` over 800000 edges and 128 features.

  `combine A B Ws bs Wd bd`: the two aggregated arrays (50000 nodes × 128 features) are each sent
  through a linear map with a bias, and the two results averaged with weights one half:
  `combine … (n, j) = ½ · (Σ_k A (n, k) · Ws (k, j) + bs j) + ½ · (Σ_k B (n, k) · Wd (k, j) + bd j)`,
  the sums over the 128 contracted features, read on the extended reals.
-/
import Idealize.ShloMosaic.PureOps.Ideal
import Idealize.ShloMosaic.Lib.ValueIdx

noncomputable section

namespace Cert.Spec

open Idealize.ShloMosaic

/-- edges × features -/
abbrev SE128 : Shape := ⟨2, ![800000, 128]⟩
/-- edges × 1: the weights as a column -/
abbrev SE1 : Shape := ⟨2, ![800000, 1]⟩
/-- nodes × features -/
abbrev SN128 : Shape := ⟨2, ![50000, 128]⟩
/-- features × features: a linear map -/
abbrev SD128 : Shape := ⟨2, ![128, 128]⟩
/-- features: a bias -/
abbrev SD : Shape := ⟨1, ![128]⟩

variable {F : FTy → Type} [FloatOps F]

/-- The weight column's entry that belongs to the edge of `i`: row `i 0`, column 0. -/
abbrev weightAt (i : SE128.Idx) : SE1.Idx := fun a => match a with
  | ⟨0, _⟩ => ⟨(i 0).val, (i 0).isLt⟩
  | ⟨1, _⟩ => ⟨0, Nat.one_pos⟩

/-- An edge's message: its weight times the gathered row, entry by entry. -/
def message (w : (⟨SE1, .f32⟩ : BufTy).Contents (Elt F)) (x : (⟨SE128, .f32⟩ : BufTy).Contents (Elt F)) :
    (⟨SE128, .f32⟩ : BufTy).Contents (Elt F) :=
  fun i => FloatOps.mulf (w (weightAt i)) (x i)

/-- Row `i 0` of the aggregated array, at the contracted feature `k`. -/
abbrev rowAt (i : SN128.Idx) (k : Fin 128) : SN128.Idx := fun a => match a with
  | ⟨0, _⟩ => ⟨(i 0).val, (i 0).isLt⟩
  | ⟨1, _⟩ => ⟨k.val, k.isLt⟩

/-- The linear map's entry from the contracted feature `k` to the output feature `i 1`. -/
abbrev colAt (i : SN128.Idx) (k : Fin 128) : SD128.Idx := fun a => match a with
  | ⟨0, _⟩ => ⟨k.val, k.isLt⟩
  | ⟨1, _⟩ => ⟨(i 1).val, (i 1).isLt⟩

/-- The bias entry of the output feature `i 1`. -/
abbrev biasAt (i : SN128.Idx) : SD.Idx := fun a => match a with
  | ⟨0, _⟩ => ⟨(i 1).val, (i 1).isLt⟩

/-- One linear map with its bias at an entry, on the extended reals: `Σ_k A (n, k) · W (k, j) + b j`. -/
def affineAt (A : (⟨SN128, .f32⟩ : BufTy).Contents (Elt Ideal)) (W : (⟨SD128, .f32⟩ : BufTy).Contents (Elt Ideal))
    (b : (⟨SD, .f32⟩ : BufTy).Contents (Elt Ideal)) (i : SN128.Idx) : Ideal .f32 :=
  FloatOps.addf (∑ k : Fin 128, A (rowAt i k) * W (colAt i k)) (b (biasAt i))

/-- The two projections averaged with weights one half (the float one half, 0x3F000000). -/
def combine (A B : (⟨SN128, .f32⟩ : BufTy).Contents (Elt Ideal))
    (Ws : (⟨SD128, .f32⟩ : BufTy).Contents (Elt Ideal)) (bs : (⟨SD, .f32⟩ : BufTy).Contents (Elt Ideal))
    (Wd : (⟨SD128, .f32⟩ : BufTy).Contents (Elt Ideal)) (bd : (⟨SD, .f32⟩ : BufTy).Contents (Elt Ideal)) :
    (⟨SN128, .f32⟩ : BufTy).Contents (Elt Ideal) :=
  fun i => FloatOps.addf
    (FloatOps.mulf (FloatOps.ofBits .f32 0x3F000000#32) (affineAt A Ws bs i))
    (FloatOps.mulf (FloatOps.ofBits .f32 0x3F000000#32) (affineAt B Wd bd i))

end Cert.Spec

end
-- ==== Proof.MsgRegion.lean ====
/-
  The message region: what the first pipelined call leaves in its two output arrays.

  The call runs over a grid of 125 points. Point `t` stages rows `6400·t … 6400·t + 6399` of three arrays:
  the edge weights as a column (800000 × 1, blocks 6400 × 1) and two arrays of gathered node rows
  (800000 × 128, blocks 6400 × 128). Its body writes, into each of two output blocks (6400 × 128), the
  weight column spread along the 128 features times one of the two gathered blocks, entry by entry:
  `out (r, d) = w (r, 0) · x (r, d)`.

  All five index maps send the point `t` to the block `(t, 0)` (decided once over the grid), so the row `r` of
  a block at point `t` is the row `6400·t + r` of every array, and the weight it is multiplied by is the weight
  of that same row. Every point writes both outputs back, and the blocks tile the arrays (125 · 6400 = 800000:
  the row `e` lies in the block of the point `e / 6400`). So after the run each output array is, at every
  entry, `Spec.message w x (e, d) = w (e, 0) · x (e, d)` of the weights and of its own gathered array.

  The order of the steps, for each output: the payload read at an entry of the block; what a point writes back
  is its block of `Spec.message`; an entry of the array is in a point's block iff its coordinates are in the
  block's ranges; every entry is in the block of some point; hence the whole array.
-/
import proofs.«180594_j74861279969844_1_alg».proof.Proof.Gen.KernelIdeal.Frame
import proofs.«180594_j74861279969844_1_alg».proof.Proof.Spec
import Idealize.ShloMosaic.Lib.Pipeline.Value
import Idealize.ShloMosaic.Lib.ValueIdx

set_option maxRecDepth 16384

noncomputable section

namespace Cert.KernelIdeal.MsgRegion

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The blocks' places and the payload at an entry -/

/-- The body reads and writes its whole blocks: the offsets of every access are zero. -/
theorem zero_offsets : (![0, 0] : Fin 2 → Nat) = fun _ => 0 := funext fun a => by fin_cases a <;> rfl

/-- The five index maps, decided over the grid: at point `t` every window is on block `(t, 0)` of its array. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The entry of a weight block that the row of `j` is multiplied by: row `j 0`, column 0. -/
abbrev blockWeightAt (j : S6400x128.Idx) : S6400x1.Idx := fun a => match a with
  | ⟨0, _⟩ => ⟨(j 0).val, (j 0).isLt⟩
  | ⟨1, _⟩ => ⟨0, Nat.one_pos⟩

/-- A column spread along the 128 features reads, at `(r, d)`, the column's entry `(r, 0)`. -/
theorem column_broadcast_apply {α : Type} (w : S6400x1.Idx → α) (j : S6400x128.Idx) :
    broadcastTo S6400x128 w broadcasts_S6400x1_S6400x128 j = w (blockWeightAt j) :=
  broadcastTo_apply w _ j (blockWeightAt j) (fun a => by
    match a with
    | ⟨0, _⟩ => rfl
    | ⟨1, _⟩ => rfl)

/-! ## The first output: the weights times the first gathered array -/

/-- The payload at an entry of the block: the two casts to the same shape are the identity, the product is entry by
    entry, and the spread column reads the weight of the entry's row. -/
theorem fwd_payload_apply (w : Vec F S6400x1 .f32) (x : Vec F S6400x128 .f32) (j : S6400x128.Idx) :
    k0_pay2 w x j = FloatOps.mulf (w (blockWeightAt j)) (x j) := by
  unfold k0_pay2 k0_pay1
  show mulf (broadcastTo S6400x128 (shapeCast S6400x1 w shapeCasts_S6400x1_S6400x1) broadcasts_S6400x1_S6400x128)
      (shapeCast S6400x128 x shapeCasts_S6400x128_S6400x128) j = _
  rw [shapeCast_self, shapeCast_self]
  show FloatOps.mulf (broadcastTo S6400x128 w broadcasts_S6400x1_S6400x128 j) (x j) = _
  rw [column_broadcast_apply]

/-- What point `t` writes back is its block of `Spec.message` of the weights and the first gathered array: the
    weight block, the gathered block and the output block all sit at rows `6400·t …`, and the weight block's
    one column is column 0 of the weights. -/
theorem fwd_flushed (c : Dev nD) (t : Fin cfg0.N) :
    (dat0 V c).flushed 3 t = ((cfg0.win 3).blk t).view.read (Elt F) (Cert.Spec.message (V c main_v36) (V c main_v43)) := by
  show (cfg0.win 3).cut (grid0.coords t) ((dat0 V c).after 3 t) = _
  rw [after0_3]
  unfold out0_3
  rw [View.canon_unit_zero zero_offsets]
  simp only [View.ld_unit_zero (S := S6400x1) zero_offsets, View.ld_unit_zero (S := S6400x128) zero_offsets]
  obtain ⟨e00, e01, e10, e11, e20, e21, e30, e31, e40, e41⟩ := block_index t
  funext j
  refine (fwd_payload_apply (iblk0 V c 0 t) (iblk0 V c 1 t) j).trans ?_
  show FloatOps.mulf (V c main_v36 (((cfg0.win 0).blk t).view.emb (blockWeightAt j))) (V c main_v43 (((cfg0.win 1).blk t).view.emb j))
    = FloatOps.mulf (V c main_v36 (Cert.Spec.weightAt (((cfg0.win 3).blk t).view.emb j))) (V c main_v43 (((cfg0.win 3).blk t).view.emb j))
  have hw : ((cfg0.win 0).blk t).view.emb (blockWeightAt j) = Cert.Spec.weightAt (((cfg0.win 3).blk t).view.emb j) := by
    funext a; apply Fin.ext
    match a with
    | ⟨0, _⟩ => show win0_0.index t (0 : Fin 2) * 6400 + 1 * (j 0).val = win0_3.index t (0 : Fin 2) * 6400 + 1 * (j 0).val; omega
    | ⟨1, _⟩ => show win0_0.index t (1 : Fin 2) * 1 + 1 * 0 = 0; omega
  have hx : ((cfg0.win 1).blk t).view.emb j = ((cfg0.win 3).blk t).view.emb j := by
    funext a; apply Fin.ext
    match a with
    | ⟨0, _⟩ => show win0_1.index t (0 : Fin 2) * 6400 + 1 * (j 0).val = win0_3.index t (0 : Fin 2) * 6400 + 1 * (j 0).val; omega
    | ⟨1, _⟩ => show win0_1.index t (1 : Fin 2) * 128 + 1 * (j 1).val = win0_3.index t (1 : Fin 2) * 128 + 1 * (j 1).val; omega
  rw [hw, hx]

/-- An entry of the array is in point `t`'s block iff each coordinate is in the block's range on its axis. -/
theorem mem_fwd_block (t : Fin cfg0.N) (i : S800000x128.Idx) :
    i ∈ ((cfg0.win 3).blk t).view.set ↔ ∀ a : Fin 2, win0_3.index t a * S6400x128.size a ≤ (i a).val ∧ (i a).val < win0_3.index t a * S6400x128.size a + S6400x128.size a := by
  show i ∈ ((View.whole main_v51_0).slice (win0_3.rect t)).set ↔ _
  rw [View.set_slice_whole, Rect.mem_set_unit]
  exact Iff.rfl

/-- The blocks tile the array: the entry `(e, d)` is in the block of the point `e / 6400`, which is written back. -/
theorem fwd_cover (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : (i 0).val / 6400 < cfg0.N := by show _ < grid0.N; rw [N_0]; omega
  obtain ⟨e00, e01, e10, e11, e20, e21, e30, e31, e40, e41⟩ := block_index ⟨(i 0).val / 6400, hN⟩
  have q0 : win0_3.index ⟨(i 0).val / 6400, hN⟩ (0 : Fin 2) = (i 0).val / 6400 := e30
  refine ⟨⟨(i 0).val / 6400, hN⟩, flush0_3 _, ?_⟩
  rw [mem_fwd_block]
  intro a
  match a with
  | ⟨0, _⟩ => show win0_3.index ⟨(i 0).val / 6400, hN⟩ (0 : Fin 2) * 6400 ≤ (i 0).val ∧ (i 0).val < win0_3.index ⟨(i 0).val / 6400, hN⟩ (0 : Fin 2) * 6400 + 6400; omega
  | ⟨1, _⟩ => show win0_3.index ⟨(i 0).val / 6400, hN⟩ (1 : Fin 2) * 128 ≤ (i 1).val ∧ (i 1).val < win0_3.index ⟨(i 0).val / 6400, hN⟩ (1 : Fin 2) * 128 + 128; omega

/-! ## The second output: the weights times the second gathered array -/

/-- The payload at an entry of the block: the two casts to the same shape are the identity, the product is entry by
    entry, and the spread column reads the weight of the entry's row. -/
theorem bwd_payload_apply (w : Vec F S6400x1 .f32) (x : Vec F S6400x128 .f32) (j : S6400x128.Idx) :
    k0_pay3 w x j = FloatOps.mulf (w (blockWeightAt j)) (x j) := by
  unfold k0_pay3 k0_pay1
  show mulf (broadcastTo S6400x128 (shapeCast S6400x1 w shapeCasts_S6400x1_S6400x1) broadcasts_S6400x1_S6400x128)
      (shapeCast S6400x128 x shapeCasts_S6400x128_S6400x128) j = _
  rw [shapeCast_self, shapeCast_self]
  show FloatOps.mulf (broadcastTo S6400x128 w broadcasts_S6400x1_S6400x128 j) (x j) = _
  rw [column_broadcast_apply]

/-- What point `t` writes back is its block of `Spec.message` of the weights and the second gathered array: the
    weight block, the gathered block and the output block all sit at rows `6400·t …`, and the weight block's
    one column is column 0 of the weights. -/
theorem bwd_flushed (c : Dev nD) (t : Fin cfg0.N) :
    (dat0 V c).flushed 4 t = ((cfg0.win 4).blk t).view.read (Elt F) (Cert.Spec.message (V c main_v36) (V c main_v50)) := by
  show (cfg0.win 4).cut (grid0.coords t) ((dat0 V c).after 4 t) = _
  rw [after0_4]
  unfold out0_4
  rw [View.canon_unit_zero zero_offsets]
  simp only [View.ld_unit_zero (S := S6400x1) zero_offsets, View.ld_unit_zero (S := S6400x128) zero_offsets]
  obtain ⟨e00, e01, e10, e11, e20, e21, e30, e31, e40, e41⟩ := block_index t
  funext j
  refine (bwd_payload_apply (iblk0 V c 0 t) (iblk0 V c 2 t) j).trans ?_
  show FloatOps.mulf (V c main_v36 (((cfg0.win 0).blk t).view.emb (blockWeightAt j))) (V c main_v50 (((cfg0.win 2).blk t).view.emb j))
    = FloatOps.mulf (V c main_v36 (Cert.Spec.weightAt (((cfg0.win 4).blk t).view.emb j))) (V c main_v50 (((cfg0.win 4).blk t).view.emb j))
  have hw : ((cfg0.win 0).blk t).view.emb (blockWeightAt j) = Cert.Spec.weightAt (((cfg0.win 4).blk t).view.emb j) := by
    funext a; apply Fin.ext
    match a with
    | ⟨0, _⟩ => show win0_0.index t (0 : Fin 2) * 6400 + 1 * (j 0).val = win0_4.index t (0 : Fin 2) * 6400 + 1 * (j 0).val; omega
    | ⟨1, _⟩ => show win0_0.index t (1 : Fin 2) * 1 + 1 * 0 = 0; omega
  have hx : ((cfg0.win 2).blk t).view.emb j = ((cfg0.win 4).blk t).view.emb j := by
    funext a; apply Fin.ext
    match a with
    | ⟨0, _⟩ => show win0_2.index t (0 : Fin 2) * 6400 + 1 * (j 0).val = win0_4.index t (0 : Fin 2) * 6400 + 1 * (j 0).val; omega
    | ⟨1, _⟩ => show win0_2.index t (1 : Fin 2) * 128 + 1 * (j 1).val = win0_4.index t (1 : Fin 2) * 128 + 1 * (j 1).val; omega
  rw [hw, hx]

/-- An entry of the array is in point `t`'s block iff each coordinate is in the block's range on its axis. -/
theorem mem_bwd_block (t : Fin cfg0.N) (i : S800000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v51_1).slice (win0_4.rect t)).set ↔ _
  rw [View.set_slice_whole, Rect.mem_set_unit]
  exact Iff.rfl

/-- The blocks tile the array: the entry `(e, d)` is in the block of the point `e / 6400`, which is written back. -/
theorem bwd_cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : (i 0).val / 6400 < cfg0.N := by show _ < grid0.N; rw [N_0]; omega
  obtain ⟨e00, e01, e10, e11, e20, e21, e30, e31, e40, e41⟩ := block_index ⟨(i 0).val / 6400, hN⟩
  have q0 : win0_4.index ⟨(i 0).val / 6400, hN⟩ (0 : Fin 2) = (i 0).val / 6400 := e40
  refine ⟨⟨(i 0).val / 6400, hN⟩, flush0_4 _, ?_⟩
  rw [mem_bwd_block]
  intro a
  match a with
  | ⟨0, _⟩ => show win0_4.index ⟨(i 0).val / 6400, hN⟩ (0 : Fin 2) * 6400 ≤ (i 0).val ∧ (i 0).val < win0_4.index ⟨(i 0).val / 6400, hN⟩ (0 : Fin 2) * 6400 + 6400; omega
  | ⟨1, _⟩ => show win0_4.index ⟨(i 0).val / 6400, hN⟩ (1 : Fin 2) * 128 ≤ (i 1).val ∧ (i 1).val < win0_4.index ⟨(i 0).val / 6400, hN⟩ (1 : Fin 2) * 128 + 128; omega

/-! ## The two arrays after the run -/

/-- The first output array is `Spec.message` of the weights and the first gathered array, at every entry. -/
theorem fwd_array (c : Dev nD) :
    (dat0 V c).arrAt 3 cfg0.N = Cert.Spec.message (V c main_v36) (V c main_v43) := by
  exact (dat0 V c).arrAt_eq_of_cover 3 (Cert.Spec.message (V c main_v36) (V c main_v43)) (fun t _ => fwd_flushed V c t) fwd_cover

/-- The second output array is `Spec.message` of the weights and the second gathered array, at every entry. -/
theorem bwd_array (c : Dev nD) :
    (dat0 V c).arrAt 4 cfg0.N = Cert.Spec.message (V c main_v36) (V c main_v50) := by
  exact (dat0 V c).arrAt_eq_of_cover 4 (Cert.Spec.message (V c main_v36) (V c main_v50)) (fun t _ => bwd_flushed V c t) bwd_cover

end Cert.KernelIdeal.MsgRegion

end
-- ==== Proof.CombineRegion.lean ====
/-
  The combine region: the array it leaves is the function `Cert.Spec.combine` of the arrays it reads, entry by entry.

  The region runs over ten points. Point `t` reads rows `5000·t … 5000·t + 4999` of the two aggregated arrays
  `A`, `B` (50000 × 128) and, whole, the two linear maps `Ws`, `Wd` (128 × 128) and the two biases `bs`, `bd`
  (128), and writes block `t` (5000 × 128) of the output. What it stores at entry `(p, j)` of the block is
  `½ · (Σ_k A (5000·t + p, k) · Ws (k, j) + bs j) + ½ · (Σ_k B (5000·t + p, k) · Wd (k, j) + bd j)`:
  on the extended reals the narrowing of the operands to the shorter float format is the identity, a product
  into the zero accumulator is the sum over the 128 contracted features, the bias is one row repeated over the
  rows of the block, and the one half is the scalar constant repeated over the block.

  In order: the contraction's index maps axis by axis and the product as a sum over `Fin 128`; the bias row read at
  an entry; the stored value at an entry (`payload_apply`); the windows' block indices decided over the ten points
  (`block_index_facts`); what a point writes back is its block of the combined array (`flushed_eq`: each input block
  is read where the output's rectangle says, a block's coordinate being block index × block size + the coordinate
  inside the block); the ten blocks tile the array (`mem_blk`, `cover`: row `r` belongs to point `r / 5000`);
  hence the array after the region (`out_array`).
-/
import proofs.«180594_j74861279969844_1_alg».proof.Proof.Gen.KernelIdeal.Frame
import proofs.«180594_j74861279969844_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.CombineRegion

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The contraction's index maps, axis by axis -/

theorem lhs_row (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
theorem lhs_col (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem rhs_row (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem rhs_col (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- A product of a 5000×128 block with a 128×128 map into the zero accumulator, at an entry: the sum over the 128
    contracted features. -/
theorem matmul_zero_apply (x : FVec Ideal S5000x128 .bf16) (w : FVec Ideal S128x128 .bf16) (p : Fin 5000) (q : Fin 128) :
    matmul Cert.KernelIdeal.dot_S5000x128_S128x128_S5000x128_1_0_0_1_n_n none x w (constant (F := Ideal) S5000x128 .f32 0x00000000#32) (ValueIdx.ix2 p q)
      = ∑ k : Fin 128, x (ValueIdx.ix2 p k) * w (ValueIdx.ix2 k q) := by
  refine (Ideal.matmul_constant_zero_apply Cert.KernelIdeal.dot_S5000x128_S128x128_S5000x128_1_0_0_1_n_n none x w (ValueIdx.ix2 p q)).trans ?_
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ValueIdx.ix2 p q) ((ValueIdx.contrEquiv1 Cert.KernelIdeal.dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_col _ _).trans hk)
  have er : Cert.KernelIdeal.dot_S5000x128_S128x128_S5000x128_1_0_0_1_n_n.rhsIdx (ValueIdx.ix2 p q) ((ValueIdx.contrEquiv1 Cert.KernelIdeal.dot_S5000x128_S128x128_S5000x128_1_0_0_1_n_n 128 rfl rfl).symm k) = ValueIdx.ix2 k q := funext fun a => Fin.ext (by
    match a with
    | ⟨0, _⟩ => exact (rhs_row _ _).trans hk
    | ⟨1, _⟩ => exact rhs_col _ _)
  rw [el, er]

/-- A bias (128 features) as one row, repeated over the 5000 rows of a block: at an entry, the bias at the column. -/
theorem bias_rows_apply (b : Vec Ideal S128 .f32) (p : Fin 5000) (q : Fin 128) :
    broadcastTo S5000x128 (shapeCast S1x128 b shapeCasts_S128_S1x128) broadcasts_S1x128_S5000x128 (ValueIdx.ix2 p q) = b (ValueIdx.ix1 q) := by
  refine (broadcastTo_apply _ broadcasts_S1x128_S5000x128 (ValueIdx.ix2 p q) (ValueIdx.ix2 (0 : Fin 1) q) fun a => ?_).trans ?_
  · match a with
    | ⟨0, _⟩ => rfl
    | ⟨1, _⟩ => show q.val = if (128 : Nat) = 1 then 0 else q.val; rw [if_neg (by decide)]
  · refine (shapeCast_addUnit_apply ![128] b shapeCasts_S128_S1x128 (ValueIdx.ix2 (0 : Fin 1) q)).trans ?_
    exact congrArg b (funext fun a => by match a with | ⟨0, _⟩ => rfl)

/-- The body's stored value at an entry of the block: each row block through its linear map (a sum over the 128
    contracted features) plus its bias, each halved, the two added. -/
theorem payload_apply (x0 x1 : Vec Ideal S5000x128 .f32) (x2 x4 : Vec Ideal S128x128 .f32) (x3 x5 : Vec Ideal S128 .f32)
    (p : Fin 5000) (q : Fin 128) :
    k1_pay1 (F := Ideal) x0 x1 x2 x4 x3 x5 (ValueIdx.ix2 p q)
      = FloatOps.addf
          (FloatOps.mulf (FloatOps.ofBits .f32 0x3F000000#32)
            (FloatOps.addf (∑ k : Fin 128, x0 (ValueIdx.ix2 p k) * x2 (ValueIdx.ix2 k q)) (x3 (ValueIdx.ix1 q))))
          (FloatOps.mulf (FloatOps.ofBits .f32 0x3F000000#32)
            (FloatOps.addf (∑ k : Fin 128, x1 (ValueIdx.ix2 p k) * x4 (ValueIdx.ix2 k q)) (x5 (ValueIdx.ix1 q)))) := by
  unfold k1_pay1
  simp only [shapeCast_self]
  show FloatOps.addf
      (FloatOps.mulf (FloatOps.ofBits .f32 0x3F000000#32)
        (FloatOps.addf
          (matmul Cert.KernelIdeal.dot_S5000x128_S128x128_S5000x128_1_0_0_1_n_n none (truncf .bf16 x0 bitsLt_bf16_f32) (truncf .bf16 x2 bitsLt_bf16_f32) (constant (F := Ideal) S5000x128 .f32 0x00000000#32) (ValueIdx.ix2 p q))
          (broadcastTo S5000x128 (shapeCast S1x128 x3 shapeCasts_S128_S1x128) broadcasts_S1x128_S5000x128 (ValueIdx.ix2 p q))))
      (FloatOps.mulf (FloatOps.ofBits .f32 0x3F000000#32)
        (FloatOps.addf
          (matmul Cert.KernelIdeal.dot_S5000x128_S128x128_S5000x128_1_0_0_1_n_n none (truncf .bf16 x1 bitsLt_bf16_f32) (truncf .bf16 x4 bitsLt_bf16_f32) (constant (F := Ideal) S5000x128 .f32 0x00000000#32) (ValueIdx.ix2 p q))
          (broadcastTo S5000x128 (shapeCast S1x128 x5 shapeCasts_S128_S1x128) broadcasts_S1x128_S5000x128 (ValueIdx.ix2 p q)))) = _
  rw [matmul_zero_apply, matmul_zero_apply, bias_rows_apply, bias_rows_apply]
  rfl

/-! ## The windows' block indices over the grid -/

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten points: the two row-block windows move with the output (block row
    `t`, block column 0); the two linear maps and the two biases stay at block 0. -/
theorem block_index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- WHAT POINT `t` WRITES BACK is block `t` of the combined array: the stored value at an entry of the block reads the
    two row blocks at rows `5000·t + p` (their block row is the output's) and the maps and biases whole (block 0). -/
theorem flushed_eq (c : Dev nD) (t : Fin cfg1.N) :
    (dat1 (F := Ideal) V c).flushed 6 t
      = ((cfg1.win 6).blk t).view.read (Elt Ideal)
          (Cert.Spec.combine (V c main_v54) (V c main_v57) (V c main_arg2) (V c main_arg3) (V c main_arg4) (V c main_arg5)) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S128x128) zero2, View.ld_unit_zero (S := S128) zero1]
  obtain ⟨e00, e01, e10, e11, e20, e21, e30, e40, e41, e50, e60, e61⟩ := block_index_facts t
  funext j
  show k1_pay1 (F := Ideal) (iblk1 V c 0 t) (iblk1 V c 1 t) (iblk1 V c 2 t) (iblk1 V c 4 t) (iblk1 V c 3 t) (iblk1 V c 5 t)
        ((cfg1.win 6).xinj (grid1.coords t) j)
      = Cert.Spec.combine (V c main_v54) (V c main_v57) (V c main_arg2) (V c main_arg3) (V c main_arg4) (V c main_arg5)
        (((cfg1.win 6).blk t).view.emb j)
  refine (congrArg _ (ValueIdx.eq_ix2 (n0 := 5000) (n1 := 128) ((cfg1.win 6).xinj (grid1.coords t) j))).trans ?_
  refine (payload_apply _ _ _ _ _ _ _ _).trans ?_
  have hj0 : (j 0).val < 5000 := (j 0).isLt
  have hj1 : (j 1).val < 128 := (j 1).isLt
  -- the first row block at (p, k) is the first aggregated array at row 5000·t + p, column k
  have hA : ∀ k : Fin 128, iblk1 V c 0 t (ValueIdx.ix2 ((cfg1.win 6).xinj (grid1.coords t) j 0) k)
      = V c main_v54 (Cert.Spec.rowAt (((cfg1.win 6).blk t).view.emb j) k) := fun k => by
    show V c main_v54 (((cfg1.win 0).blk t).view.emb (ValueIdx.ix2 ((cfg1.win 6).xinj (grid1.coords t) j 0) k)) = _
    refine congrArg (V c main_v54) (funext fun a => Fin.ext ?_)
    match a with
    | ⟨0, _⟩ =>
      show win1_0.index t (0 : Fin 2) * 5000 + 1 * (j 0).val = win1_6.index t (0 : Fin 2) * 5000 + 1 * (j 0).val
      omega
    | ⟨1, _⟩ =>
      show win1_0.index t (1 : Fin 2) * 128 + 1 * k.val = k.val
      omega
  -- the second row block, the same way
  have hB : ∀ k : Fin 128, iblk1 V c 1 t (ValueIdx.ix2 ((cfg1.win 6).xinj (grid1.coords t) j 0) k)
      = V c main_v57 (Cert.Spec.rowAt (((cfg1.win 6).blk t).view.emb j) k) := fun k => by
    show V c main_v57 (((cfg1.win 1).blk t).view.emb (ValueIdx.ix2 ((cfg1.win 6).xinj (grid1.coords t) j 0) k)) = _
    refine congrArg (V c main_v57) (funext fun a => Fin.ext ?_)
    match a with
    | ⟨0, _⟩ =>
      show win1_1.index t (0 : Fin 2) * 5000 + 1 * (j 0).val = win1_6.index t (0 : Fin 2) * 5000 + 1 * (j 0).val
      omega
    | ⟨1, _⟩ =>
      show win1_1.index t (1 : Fin 2) * 128 + 1 * k.val = k.val
      omega
  -- the first linear map, whole: its block at (k, q) is the map at (k, q), q the output's column
  have hWs : ∀ k : Fin 128, iblk1 V c 2 t (ValueIdx.ix2 k ((cfg1.win 6).xinj (grid1.coords t) j 1))
      = V c main_arg2 (Cert.Spec.colAt (((cfg1.win 6).blk t).view.emb j) k) := fun k => by
    show V c main_arg2 (((cfg1.win 2).blk t).view.emb (ValueIdx.ix2 k ((cfg1.win 6).xinj (grid1.coords t) j 1))) = _
    refine congrArg (V c main_arg2) (funext fun a => Fin.ext ?_)
    match a with
    | ⟨0, _⟩ =>
      show win1_2.index t (0 : Fin 2) * 128 + 1 * k.val = k.val
      omega
    | ⟨1, _⟩ =>
      show win1_2.index t (1 : Fin 2) * 128 + 1 * (j 1).val = win1_6.index t (1 : Fin 2) * 128 + 1 * (j 1).val
      omega
  -- the second linear map, the same way
  have hWd : ∀ k : Fin 128, iblk1 V c 4 t (ValueIdx.ix2 k ((cfg1.win 6).xinj (grid1.coords t) j 1))
      = V c main_arg4 (Cert.Spec.colAt (((cfg1.win 6).blk t).view.emb j) k) := fun k => by
    show V c main_arg4 (((cfg1.win 4).blk t).view.emb (ValueIdx.ix2 k ((cfg1.win 6).xinj (grid1.coords t) j 1))) = _
    refine congrArg (V c main_arg4) (funext fun a => Fin.ext ?_)
    match a with
    | ⟨0, _⟩ =>
      show win1_4.index t (0 : Fin 2) * 128 + 1 * k.val = k.val
      omega
    | ⟨1, _⟩ =>
      show win1_4.index t (1 : Fin 2) * 128 + 1 * (j 1).val = win1_6.index t (1 : Fin 2) * 128 + 1 * (j 1).val
      omega
  -- the two biases, whole: at q, the bias at the output's column
  have hbs : iblk1 V c 3 t (ValueIdx.ix1 ((cfg1.win 6).xinj (grid1.coords t) j 1))
      = V c main_arg3 (Cert.Spec.biasAt (((cfg1.win 6).blk t).view.emb j)) := by
    show V c main_arg3 (((cfg1.win 3).blk t).view.emb (ValueIdx.ix1 ((cfg1.win 6).xinj (grid1.coords t) j 1))) = _
    refine congrArg (V c main_arg3) (funext fun a => Fin.ext ?_)
    match a with
    | ⟨0, _⟩ =>
      show win1_3.index t (0 : Fin 1) * 128 + 1 * (j 1).val = win1_6.index t (1 : Fin 2) * 128 + 1 * (j 1).val
      omega
  have hbd : iblk1 V c 5 t (ValueIdx.ix1 ((cfg1.win 6).xinj (grid1.coords t) j 1))
      = V c main_arg5 (Cert.Spec.biasAt (((cfg1.win 6).blk t).view.emb j)) := by
    show V c main_arg5 (((cfg1.win 5).blk t).view.emb (ValueIdx.ix1 ((cfg1.win 6).xinj (grid1.coords t) j 1))) = _
    refine congrArg (V c main_arg5) (funext fun a => Fin.ext ?_)
    match a with
    | ⟨0, _⟩ =>
      show win1_5.index t (0 : Fin 1) * 128 + 1 * (j 1).val = win1_6.index t (1 : Fin 2) * 128 + 1 * (j 1).val
      omega
  unfold Cert.Spec.combine Cert.Spec.affineAt
  exact congrArg₂ FloatOps.addf
    (congrArg (FloatOps.mulf _) (congrArg₂ FloatOps.addf
      (Finset.sum_congr rfl fun k _ => congrArg₂ (· * ·) (hA k) (hWs k)) hbs))
    (congrArg (FloatOps.mulf _) (congrArg₂ FloatOps.addf
      (Finset.sum_congr rfl fun k _ => congrArg₂ (· * ·) (hB k) (hWd k)) hbd))

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v58).slice (win1_6.rect t)).set ↔ _
  rw [View.set_slice_whole, Rect.mem_set_unit]
  exact Iff.rfl

/-- The ten blocks tile the array: row `r` is in the block of point `r / 5000`, and every point writes its block back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, -, -, e60, e61⟩ := block_index_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE ARRAY after the region: the combined array, entry by entry. -/
theorem out_array (c : Dev nD) :
    (dat1 (F := Ideal) V c).arrAt 6 cfg1.N
      = Cert.Spec.combine (V c main_v54) (V c main_v57) (V c main_arg2) (V c main_arg3) (V c main_arg4) (V c main_arg5) :=
  (dat1 (F := Ideal) V c).arrAt_eq_of_cover 6
    (Cert.Spec.combine (V c main_v54) (V c main_v57) (V c main_arg2) (V c main_arg3) (V c main_arg4) (V c main_arg5))
    (fun t _ => flushed_eq V c t) cover

end Cert.KernelIdeal.CombineRegion

end
-- ==== Proof.RefSide.lean ====
/-
  The reference's stages in the specification's words.

  The reference multiplies the weight column, broadcast along the 128 features, into the gathered rows:
  its two message arrays are `Spec.message` of the weight column and the rows gathered at the column
  (resp. row) indices. Its result is, entry by entry, one half of the forward aggregate sent through the source
  map plus the source bias, plus one half of the backward aggregate sent through the destination map plus
  the destination bias: at the extended reals each `dot_general` entry is the sum over the 128 contracted
  features, so the result array is `Spec.combine` of the two aggregated arrays and the four projection
  arguments. Both facts are read off the operations one at a time; no arithmetic law is used.
-/
import proofs.«180594_j74861279969844_1_alg».proof.Proof.RefRead
import proofs.«180594_j74861279969844_1_alg».proof.Proof.Spec

noncomputable section

namespace Cert.ReferenceIdeal.RefValue

open Cert.ReferenceIdeal Cert.ReferenceIdeal.ReadP
open Idealize.ShloMosaic Idealize.ShloMosaic.TcCoe Idealize.SL.Sem

variable {F : FTy → Type} [FloatOps F]

/-- The forward messages: the weight column times the rows gathered at the column indices. -/
theorem fwd_message (x0 : (⟨S50000x128, .f32⟩ : BufTy).Contents (Elt F)) (x1 : (⟨S2x800000, .i32⟩ : BufTy).Contents (Elt F)) :
    val_main_v45 (F := F) x0 x1 = Cert.Spec.message (val_main_v36 (F := F) x1) (val_main_v43 (F := F) x0 x1) := by
  funext i
  rw [val_main_v45_apply, val_main_v44_apply]
  rfl

/-- The backward messages: the weight column times the rows gathered at the row indices. -/
theorem bwd_message (x0 : (⟨S50000x128, .f32⟩ : BufTy).Contents (Elt F)) (x1 : (⟨S2x800000, .i32⟩ : BufTy).Contents (Elt F)) :
    val_main_v58 (F := F) x0 x1 = Cert.Spec.message (val_main_v49 (F := F) x1) (val_main_v56 (F := F) x0 x1) := by
  funext i
  rw [val_main_v58_apply, val_main_v57_apply]
  rfl

/-- The two spellings of the weight column (the reference broadcasts the weight vector to a column once per
    message array) are one array. -/
theorem weight_column_eq (x1 : (⟨S2x800000, .i32⟩ : BufTy).Contents (Elt F)) :
    val_main_v49 (F := F) x1 = val_main_v36 (F := F) x1 := rfl

/-- The reference's result, entry by entry, is the combined projection of its two aggregated arrays. -/
theorem result_combine (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v74 (F := Ideal) x0 x1 x2 x3 x4 x5
      = Cert.Spec.combine (val_main_v48 (F := Ideal) x0 x1) (val_main_v61 (F := Ideal) x0 x1) x2 x3 x4 x5 := by
  funext i
  rw [val_main_v74_apply, val_main_v67_apply, val_main_v73_apply, val_main_v66_apply, val_main_v72_apply,
    val_main_cst_17_apply, val_main_cst_18_apply, val_main_v65_apply, val_main_v71_apply,
    val_main_v62_apply, val_main_v68_apply, val_main_v64_apply, val_main_v70_apply,
    val_main_v63_apply, val_main_v69_apply]
  rfl

end Cert.ReferenceIdeal.RefValue

end
-- ==== Proof.Bridge.lean ====
/-
  The kernel's result array is the reference's result stage of the same arguments (at the extended reals).

  The kernel's program runs: host operations (the indices, the edge weights, the gathered node rows), the first
  pallas_call (the messages), two host scatter-adds (the aggregated arrays), the second pallas_call (the two
  projections combined). Read backwards from the result buffer:
    * the result array is what the second region leaves, `Spec.combine` of the two aggregated arrays and the four
      projection arguments as that region finds them;
    * the projection arguments reach that region as launched; each aggregated array is the host's scatter-add, at the
      row (resp. column) indices, of a message array the first region left;
    * each message array is `Spec.message` of the weight column and a gathered array as the first region finds them;
    * those are the reference's own stages of the arguments, the weight vector reshaped to a column where the
      reference broadcasts it to a column: the same array.
  The reference computes its messages, aggregates and result by the same functions of the same stages, so the two
  results are one term. No law of arithmetic is used: the two programs group every sum and product alike.
-/
import proofs.«180594_j74861279969844_1_alg».proof.Proof.HostEntry
import proofs.«180594_j74861279969844_1_alg».proof.Proof.MsgRegion
import proofs.«180594_j74861279969844_1_alg».proof.Proof.CombineRegion
import proofs.«180594_j74861279969844_1_alg».proof.Proof.RefSide

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo
open Cert.ReferenceIdeal.ReadP

/-- The vector's entry that a column's entry `(e, 0)` comes from: `e`. -/
abbrev rowOf (j : S800000x1.Idx) : S800000.Idx := fun a => match a with
  | ⟨0, _⟩ => ⟨(j 0).val, (j 0).isLt⟩

/-- A vector of 800000 entries reshaped to a column is that vector broadcast to a column: entry `(e, 0)` of either
    is entry `e` of the vector. -/
theorem column_eq {F : FTy → Type} [FloatOps F] (y : (⟨S800000, .f32⟩ : BufTy).Contents (Elt F)) :
    shapeCast S800000x1 y shapeCasts_S800000_S800000x1
      = broadcastInDim S800000x1 ![0] bcast_S800000_S800000x1_0 y := by
  funext j
  have hj : (j 1).val < 1 := (j 1).isLt
  rw [shapeCast_apply y shapeCasts_S800000_S800000x1 j (rowOf j)
      (by rewrite [Shape.rowMajor_val_one, Shape.rowMajor_val_two]; show (j 0).val = (j 0).val * 1 + (j 1).val; omega),
    broadcastInDim_apply _ bcast_S800000_S800000x1_0 y j (rowOf j)
      (fun a => match a with
        | ⟨0, _⟩ => by show (j 0).val = if (800000 : Nat) = 1 then 0 else (j 0).val; rw [if_neg (by decide)])]

variable (m : (ℓ : Loc nD τ sig) → Buf (Elt Ideal) ℓ) (ρ : Dev nD → PrngReg)

/-- The weight column the first region finds is the reference's weight column. -/
theorem weight_column (c : Dev nD) :
    V5 m ρ c main_v36 = val_main_v36 (F := Ideal) (m ((c : Thread nD τ).loc main_arg1)) :=
  (HostEntry.entry_weight m ρ c).trans (column_eq _)

/-- The forward messages the first region leaves are the reference's. -/
theorem fwd_left (c : Dev nD) :
    W6 m ρ c (Proc.devRef .tc main_v51_0)
      = val_main_v45 (F := Ideal) (m ((c : Thread nD τ).loc main_arg0)) (m ((c : Thread nD τ).loc main_arg1)) :=
  calc W6 m ρ c (Proc.devRef .tc main_v51_0)
    _ = (dat0 (V5 m ρ) c).arrAt 3 cfg0.N := W6_arr m ρ c 3
    _ = Cert.Spec.message (V5 m ρ c main_v36) (V5 m ρ c main_v43) := MsgRegion.fwd_array (V5 m ρ) c
    _ = Cert.Spec.message (val_main_v36 (F := Ideal) (m ((c : Thread nD τ).loc main_arg1)))
          (val_main_v43 (F := Ideal) (m ((c : Thread nD τ).loc main_arg0)) (m ((c : Thread nD τ).loc main_arg1))) := by
        rw [weight_column m ρ c, HostEntry.entry_xcol m ρ c]
    _ = _ := (Cert.ReferenceIdeal.RefValue.fwd_message _ _).symm

/-- The backward messages the first region leaves are the reference's. -/
theorem bwd_left (c : Dev nD) :
    W6 m ρ c (Proc.devRef .tc main_v51_1)
      = val_main_v58 (F := Ideal) (m ((c : Thread nD τ).loc main_arg0)) (m ((c : Thread nD τ).loc main_arg1)) :=
  calc W6 m ρ c (Proc.devRef .tc main_v51_1)
    _ = (dat0 (V5 m ρ) c).arrAt 4 cfg0.N := W6_arr m ρ c 4
    _ = Cert.Spec.message (V5 m ρ c main_v36) (V5 m ρ c main_v50) := MsgRegion.bwd_array (V5 m ρ) c
    _ = Cert.Spec.message (val_main_v49 (F := Ideal) (m ((c : Thread nD τ).loc main_arg1)))
          (val_main_v56 (F := Ideal) (m ((c : Thread nD τ).loc main_arg0)) (m ((c : Thread nD τ).loc main_arg1))) := by
        rw [weight_column m ρ c, HostEntry.entry_xrow m ρ c, Cert.ReferenceIdeal.RefValue.weight_column_eq]
    _ = _ := (Cert.ReferenceIdeal.RefValue.bwd_message _ _).symm

/-- The row indices are untouched by the first region. -/
theorem row_kept (c : Dev nD) :
    W6 m ρ c (Proc.devRef .tc main_v1) = val_main_v1 (F := Ideal) (m ((c : Thread nD τ).loc main_arg1)) :=
  (W6_of_ne m ρ c main_v1 (by decide)).trans (HostEntry.entry_row m ρ c)

/-- The column indices are untouched by the first region. -/
theorem col_kept (c : Dev nD) :
    W6 m ρ c (Proc.devRef .tc main_v3) = val_main_v3 (F := Ideal) (m ((c : Thread nD τ).loc main_arg1)) :=
  (W6_of_ne m ρ c main_v3 (by decide)).trans (HostEntry.entry_col m ρ c)

/-- The forward aggregate the second region finds is the reference's: the same scatter-add of the same messages at
    the same row indices. -/
theorem fwd_aggregate (c : Dev nD) :
    V7 m ρ c main_v54
      = val_main_v48 (F := Ideal) (m ((c : Thread nD τ).loc main_arg0)) (m ((c : Thread nD τ).loc main_arg1)) := by
  show W7 m ρ c (Proc.devRef .tc main_v54) = _
  after_results_simp
  rw [fwd_left m ρ c, row_kept m ρ c]
  rfl

/-- The backward aggregate the second region finds is the reference's. -/
theorem bwd_aggregate (c : Dev nD) :
    V7 m ρ c main_v57
      = val_main_v61 (F := Ideal) (m ((c : Thread nD τ).loc main_arg0)) (m ((c : Thread nD τ).loc main_arg1)) := by
  show W7 m ρ c (Proc.devRef .tc main_v57) = _
  after_results_simp
  rw [bwd_left m ρ c, col_kept m ρ c]
  rfl

/-- The projection arguments reach the second region as launched (the region leaves its input arrays as it
    found them, and the arguments end as launched). -/
theorem arg2_entry (c : Dev nD) : V7 m ρ c main_arg2 = m ((c : Thread nD τ).loc main_arg2) :=
  ((W8_arr m ρ c 2).trans (((dat1 (V7 m ρ) c).arrAt_in 2 rfl _).trans (A_eq1 (V7 m ρ) c 2))).symm.trans (W8_main_arg2 m ρ c)
theorem arg3_entry (c : Dev nD) : V7 m ρ c main_arg3 = m ((c : Thread nD τ).loc main_arg3) :=
  ((W8_arr m ρ c 3).trans (((dat1 (V7 m ρ) c).arrAt_in 3 rfl _).trans (A_eq1 (V7 m ρ) c 3))).symm.trans (W8_main_arg3 m ρ c)
theorem arg4_entry (c : Dev nD) : V7 m ρ c main_arg4 = m ((c : Thread nD τ).loc main_arg4) :=
  ((W8_arr m ρ c 4).trans (((dat1 (V7 m ρ) c).arrAt_in 4 rfl _).trans (A_eq1 (V7 m ρ) c 4))).symm.trans (W8_main_arg4 m ρ c)
theorem arg5_entry (c : Dev nD) : V7 m ρ c main_arg5 = m ((c : Thread nD τ).loc main_arg5) :=
  ((W8_arr m ρ c 5).trans (((dat1 (V7 m ρ) c).arrAt_in 5 rfl _).trans (A_eq1 (V7 m ρ) c 5))).symm.trans (W8_main_arg5 m ρ c)

/-- THE RESULT: what the kernel's program leaves in its result buffer is the reference's result stage of the
    arguments' launch contents. -/
theorem result_eq (c : Dev nD) :
    W8 m ρ c (Proc.devRef .tc main_v58)
      = val_main_v74 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  calc W8 m ρ c (Proc.devRef .tc main_v58)
    _ = (dat1 (V7 m ρ) c).arrAt 6 cfg1.N := W8_arr m ρ c 6
    _ = Cert.Spec.combine (V7 m ρ c main_v54) (V7 m ρ c main_v57) (V7 m ρ c main_arg2) (V7 m ρ c main_arg3)
          (V7 m ρ c main_arg4) (V7 m ρ c main_arg5) := CombineRegion.out_array (V7 m ρ) c
    _ = Cert.Spec.combine
          (val_main_v48 (F := Ideal) (m ((c : Thread nD τ).loc main_arg0)) (m ((c : Thread nD τ).loc main_arg1)))
          (val_main_v61 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
        rw [fwd_aggregate m ρ c, bwd_aggregate m ρ c, arg2_entry m ρ c, arg3_entry m ρ c, arg4_entry m ρ c, arg5_entry m ρ c]
    _ = _ := (Cert.ReferenceIdeal.RefValue.result_combine _ _ _ _ _ _).symm

end Cert.KernelIdeal.Bridge

end
-- ==== Proof.lean ====
/-
  A directed graph convolution: the edge weights are the product of the inverse square roots of the source's
  out-degree and the target's in-degree (zero where a degree is zero); each edge carries its weight times a gathered
  node row, forward and backward; the messages are summed into their nodes; and the two aggregated arrays go through
  two linear maps with biases, averaged with weights one half.

  The kernel's program does the degree counts, the weights, the gathers and the two scatter-added sums on the host,
  exactly as the reference does, and uses two pallas_calls: one for the messages (the weight column broadcast along
  the features, times the gathered block, 6400 edges at a time) and one for the combined projection (both row blocks
  and both maps narrowed to bfloat16 — the identity on the extended reals —, two matrix products into a zero
  accumulator, the biases, the halves, the sum, 5000 nodes at a time).

  The claims:
    * the three programs run to the end without a fault and leave their arguments as launched (the two kernel
      programs' frames are the generated ones; the reference's is its run with the result dropped);
    * the idealised kernel is the kernel's own text read at the extended reals (no operation was rewritten);
    * the idealised kernel and the idealised reference, from memories agreeing on the arguments, end with the same
      result: both result arrays are the reference's result stage of the arguments (Proof/Bridge.lean for the
      kernel's program, the reference's run for the reference). No arithmetic law joins the two sides: the programs
      group every sum and every product alike, so finiteness of the inputs is never used.
-/
import proofs.«180594_j74861279969844_1_alg».proof.Defs
import proofs.«180594_j74861279969844_1_alg».proof.Proof.Gen.Kernel
import proofs.«180594_j74861279969844_1_alg».proof.Proof.Gen.Kernel.Frame
import proofs.«180594_j74861279969844_1_alg».proof.Proof.Gen.KernelIdeal
import proofs.«180594_j74861279969844_1_alg».proof.Proof.Gen.KernelIdeal.Frame
import proofs.«180594_j74861279969844_1_alg».proof.Proof.Gen.ReferenceIdeal
import proofs.«180594_j74861279969844_1_alg».proof.Proof.Gen.Pre_finite_inputs
import proofs.«180594_j74861279969844_1_alg».proof.Proof.KernelRun
import proofs.«180594_j74861279969844_1_alg».proof.Proof.RefRun
import proofs.«180594_j74861279969844_1_alg».proof.Proof.RefRead
import proofs.«180594_j74861279969844_1_alg».proof.Proof.Bridge
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

/-- The kernel's program at the word level runs and keeps its arguments. -/
theorem frame_kernel : Cert.frame_Kernel := fun m ρ _ => Cert.Kernel.Gen.frame m ρ

/-- The idealised kernel's program runs and keeps its arguments. -/
theorem frame_kernelIdeal : Cert.frame_KernelIdeal := fun m ρ _ => Cert.KernelIdeal.Gen.frame m ρ

/-- The idealised reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.ReferenceIdeal.ReadP.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v74_eq, (hagree c).1, (hagree c).2.1, (hagree c).2.2.1,
      (hagree c).2.2.2.1, (hagree c).2.2.2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
